-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 60
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x40, .f32⟩
  | .hbm, ⟨59, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S1x40, .f32⟩
  | .local _ .vmem, ⟨15, _⟩ => ⟨S128x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x40, .f32⟩
  | .hbm, ⟨72, _⟩ => ⟨S1x40, .f32⟩
  | .hbm, ⟨73, _⟩ => ⟨S50000x40, .f32⟩
  | .hbm, ⟨74, _⟩ => ⟨S50000x40, .f32⟩
  | .hbm, ⟨75, _⟩ => ⟨S50000x40, .f32⟩
  | .hbm, ⟨76, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.SageSpec.lean ====
/-
  Two stacked mean-aggregating graph convolutions, written once as a function of the arrays, over the extended reals.

  One layer sends node features x (a row per node, 128 columns) to

      out[p, q] = Σ_k mean[p, k] · Wl[k, q]  +  b[q]  +  Σ_k x[p, k] · Wr[k, q],

  where mean[p, ·] is the sum of the rows x[src e, ·] over the edges e with dst e = p, divided by the node's in-degree
  clamped below at 1. The sum over edges is the same gather and scatter-add in both programs and is never opened here:
  it enters as an arbitrary function agg of the feature matrix. The clamped degree enters as an arbitrary vector d of
  extended reals that are never 0.

  The two programs spell the mean differently: one divides each aggregated row by d[p], the other multiplies it by the
  reciprocal 1/d[p] computed once. On the extended reals x / y is x · y⁻¹ whenever y ≠ 0, so 1/y = y⁻¹ and the two agree
  for every x, infinite or not (scaled_eq_mean); d[p] = max(deg[p], 1) ≥ 1 is never 0 (clamp_ne_zero).

  A layer is row-wise: row p of the output reads only row p of mean and of x. So the layer of a block of rows is that
  block of rows of the layer of the whole matrix (conv_rows), which is what lets a row-tiled evaluation be read as one
  whole-matrix function.
-/
import Idealize.ShloMosaic.PureOps.Ideal
import Idealize.ShloMosaic.PureOps.Ideal.Laws
import Idealize.ShloMosaic.Lib.IdealHost
import Idealize.ShloMosaic.Lib.ValueIdx

noncomputable section

namespace Cert.SageSpec

open Idealize.ShloMosaic Idealize.ShloMosaic.ValueIdx

/-- An r × c matrix of extended reals. -/
abbrev Mat (r c : Nat) : Type := (⟨2, ![r, c]⟩ : Shape).Idx → EReal

/-- Entry (p, q) of one layer before its activation: the neighbour mean through the left weights, plus the bias,
    plus the node's own row through the right weights, each product summed over the 128 input features. -/
def convAt {n fo : Nat} (mean x : Mat n 128) (wl : Mat 128 fo) (b : Fin fo → EReal) (wr : Mat 128 fo)
    (p : Fin n) (q : Fin fo) : EReal :=
  (∑ k : Fin 128, mean (ix2 p k) * wl (ix2 k q)) + b q + ∑ k : Fin 128, x (ix2 p k) * wr (ix2 k q)

/-- The layer as a matrix. -/
def conv {n fo : Nat} (mean x : Mat n 128) (wl : Mat 128 fo) (b : Fin fo → EReal) (wr : Mat 128 fo) : Mat n fo :=
  fun i => convAt mean x wl b wr (i 0) (i 1)

theorem conv_ix2 {n fo : Nat} (mean x : Mat n 128) (wl : Mat 128 fo) (b : Fin fo → EReal) (wr : Mat 128 fo)
    (p : Fin n) (q : Fin fo) : conv mean x wl b wr (ix2 p q) = convAt mean x wl b wr p q := rfl

/-- The activation between the layers: the larger of the entry and the number the zero word denotes. -/
def relu {n fo : Nat} (h : Mat n fo) : Mat n fo := fun i => max (h i) (Ideal.ofBits .f32 0x00000000#32)

/-- The neighbour mean by division: each aggregated row divided by its node's clamped degree. -/
def meanOf {n : Nat} (agg : Mat n 128) (d : Fin n → EReal) : Mat n 128 := fun i => Ideal.div (agg i) (d (i 0))

/-- The neighbour mean by a reciprocal taken first: each aggregated row times one over its node's clamped degree. -/
def scaledBy {n : Nat} (agg : Mat n 128) (d : Fin n → EReal) : Mat n 128 :=
  fun i => agg i * Ideal.div (Ideal.ofBits .f32 0x3F800000#32) (d (i 0))

/-- Off zero a quotient is the product with the inverse; so one over y is y's inverse, and a times it is a over y —
    for every a, the infinities included. -/
theorem mul_recip (a y : EReal) (hy : y ≠ 0) : a * Ideal.div 1 y = Ideal.div a y := by
  unfold Ideal.div
  rw [if_neg hy, if_neg hy, one_mul]

/-- So the two spellings of the mean are one function when no clamped degree is zero. -/
theorem scaled_eq_mean {n : Nat} (agg : Mat n 128) (d : Fin n → EReal) (hd : ∀ p, d p ≠ 0) :
    scaledBy agg d = meanOf agg d := by
  funext i
  unfold scaledBy meanOf
  rw [Ideal.ofBits_one_f32]
  exact mul_recip _ _ (hd _)

/-- A degree clamped below at one is at least one, hence not zero — whatever the degree is. -/
theorem clamp_ne_zero (a : EReal) : max a (Ideal.ofBits .f32 0x3F800000#32) ≠ 0 := by
  rw [Ideal.ofBits_one_f32]
  exact (lt_of_lt_of_le zero_lt_one (le_max_right a 1)).ne'

/-- The whole two-layer network as one function of the feature matrix, the two layers' weights and biases, the
    edge aggregation agg and the clamped degrees d. -/
def net (agg : Mat 50000 128 → Mat 50000 128) (d : Fin 50000 → EReal) (x : Mat 50000 128)
    (wl1 : Mat 128 128) (b1 : Fin 128 → EReal) (wr1 : Mat 128 128)
    (wl2 : Mat 128 40) (b2 : Fin 40 → EReal) (wr2 : Mat 128 40) : Mat 50000 40 :=
  conv (meanOf (agg (relu (conv (meanOf (agg x) d) x wl1 b1 wr1))) d) (relu (conv (meanOf (agg x) d) x wl1 b1 wr1)) wl2 b2 wr2

/-- A layer is row-wise: if the rows of mean' and x' are the rows off, off + 1, … of mean and x, then row p of the
    layer of (mean', x') is row off + p of the layer of (mean, x). -/
theorem convAt_rows {n n' fo : Nat} (mean x : Mat n 128) (mean' x' : Mat n' 128) (wl : Mat 128 fo) (b : Fin fo → EReal)
    (wr : Mat 128 fo) (p' : Fin n') (p : Fin n) (q : Fin fo)
    (hm : ∀ k : Fin 128, mean' (ix2 p' k) = mean (ix2 p k)) (hx : ∀ k : Fin 128, x' (ix2 p' k) = x (ix2 p k)) :
    convAt mean' x' wl b wr p' q = convAt mean x wl b wr p q := by
  unfold convAt
  have e1 : (∑ k : Fin 128, mean' (ix2 p' k) * wl (ix2 k q)) = ∑ k : Fin 128, mean (ix2 p k) * wl (ix2 k q) :=
    Finset.sum_congr rfl fun k _ => by rw [hm k]
  have e2 : (∑ k : Fin 128, x' (ix2 p' k) * wr (ix2 k q)) = ∑ k : Fin 128, x (ix2 p k) * wr (ix2 k q) :=
    Finset.sum_congr rfl fun k _ => by rw [hx k]
  rw [e1, e2]

end Cert.SageSpec

end
-- ==== Proof.KBody0.lean ====
/-
  What one grid point of the first layer's kernel stores, as a function of the five blocks it loads, over the extended
  reals: the block of rows of the layer, activation applied.

  The body casts its operands to a narrower float format (the identity on the extended reals), multiplies the mean
  block by the left weights and the feature block by the right weights on the matrix unit into zero accumulators (each
  entry the plain sum over the 128 contracted features), adds the bias row broadcast down the rows between the two
  products, and takes the maximum with zero. Entry (p, q) is therefore
      max( Σ_k mean[p,k]·Wl[k,q] + b[0,q] + Σ_k x[p,k]·Wr[k,q] , 0 ).
-/
import proofs.«131667_j30116310680318_1_alg».proof.Proof.Gen.KernelIdeal.Skeleton
import proofs.«131667_j30116310680318_1_alg».proof.Proof.SageSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.SageSpec

/-! ## The first layer's matrix product read at an entry -/

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product on the matrix unit into a zero accumulator, read at entry (p, q): the sum over the contracted feature k
    of row p of the left operand times column q of the right. -/
theorem mm0_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The bias row broadcast down the 5000 rows, read at entry (p, q): the row's entry q. -/
theorem bias0_at (v : Vec Ideal S1x128 .f32) (p : Fin 5000) (q : Fin 128) :
    broadcastTo S5000x128 (shapeCast S1x128 v Facts₀.shapeCasts_S1x128_S1x128) Facts₀.broadcasts_S1x128_S5000x128 (ix2 p q)
      = v (ix2 (0 : Fin 1) q) := by
  rw [shapeCast_self]
  refine broadcastTo_apply v _ (ix2 p q) (ix2 (0 : Fin 1) q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- What a grid point of the first layer's kernel stores: the layer of its blocks, activation applied. -/
theorem pay0_eq (v0 v3 : Vec Ideal S5000x128 .f32) (v5 v7 : Vec Ideal S128x128 .f32) (v10 : Vec Ideal S1x128 .f32) :
    k0_pay1 (F := Ideal) v0 v3 v5 v7 v10 = relu (conv v0 v3 v5 (fun q => v10 (ix2 (0 : Fin 1) q)) v7) := by
  funext i
  obtain ⟨p, q, rfl⟩ : ∃ (p : Fin 5000) (q : Fin 128), i = ix2 p q := ⟨i 0, i 1, eq_ix2 i⟩
  unfold k0_pay1
  rw [maximumf_apply, addf_apply, addf_apply, mm0_at, mm0_at, bias0_at, shapeCast_self]
  rfl

end Cert.KernelIdeal.Body

end
-- ==== Proof.KRegion0.lean ====
/-
  The first layer's pallas_call, blocks to array: the hidden features after the run as one function of the region's arrays.

  The pallas_call tiles the 50000 node rows into ten blocks of 5000: grid point t loads rows 5000 t … 5000 t + 4999 of
  the mean matrix and of the feature matrix, the two weight matrices and the bias row whole, and writes rows
  5000 t … 5000 t + 4999 of the output. What it stores is the layer of its blocks (the body's payload, read entry by
  entry); a layer is row-wise, so that is the same rows of the layer of the WHOLE matrices. The ten row blocks tile the
  output, so after the run the output array is the layer of the arrays as the region found them, activation applied.
  Everything here is stated at arbitrary entry contents V of the buffers: which arrays those are is the host side's
  business.
-/
import proofs.«131667_j30116310680318_1_alg».proof.Proof.Gen.KernelIdeal.Frame
import proofs.«131667_j30116310680318_1_alg».proof.Proof.KBody0
import proofs.«131667_j30116310680318_1_alg».proof.Proof.SageSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Body Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays as the region finds them: what the output array is to end holding. -/
abbrev layer (c : Dev nD) : S50000x128.Idx → EReal :=
  relu (conv (n := 50000) (fo := 128) (V c main_v24 : S50000x128.Idx → EReal) (V c main_arg0 : S50000x128.Idx → EReal)
    (V c main_arg2 : S128x128.Idx → EReal) (fun q => (V c main_v25 : S1x128.Idx → EReal) (ix2 (0 : Fin 1) q)) (V c main_arg4 : S128x128.Idx → EReal))

/-- The printed index maps, decided over the ten grid points: the row-tiled windows (mean, features, output) are at
    block (t, 0), the whole-array windows (weights, bias) at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as entries of its array -/

/-- Row r of the mean block at point t is row 5000 t + r of the mean matrix. -/
theorem mean_blk (c : Dev nD) (t : Fin cfg0.N) (y : S5000x128.Idx) (k : S50000x128.Idx)
    (hk0 : (k 0).val = 5000 * t.val + (y 0).val) (hk1 : (k 1).val = (y 1).val) :
    (iblk0 V c 0 t : S5000x128.Idx → EReal) y = (V c main_v24 : S50000x128.Idx → EReal) k := by
  obtain ⟨e0, e1, -⟩ := idx_facts t
  unfold iblk0
  rw [View.read_apply]
  show (V c main_v24 : S50000x128.Idx → EReal) _ = (V c main_v24 : S50000x128.Idx → EReal) _
  refine congrArg _ (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- Row r of the feature block at point t is row 5000 t + r of the feature matrix. -/
theorem feat_blk (c : Dev nD) (t : Fin cfg0.N) (y : S5000x128.Idx) (k : S50000x128.Idx)
    (hk0 : (k 0).val = 5000 * t.val + (y 0).val) (hk1 : (k 1).val = (y 1).val) :
    (iblk0 V c 1 t : S5000x128.Idx → EReal) y = (V c main_arg0 : S50000x128.Idx → EReal) k := by
  obtain ⟨-, -, e0, e1, -⟩ := idx_facts t
  unfold iblk0
  rw [View.read_apply]
  show (V c main_arg0 : S50000x128.Idx → EReal) _ = (V c main_arg0 : S50000x128.Idx → EReal) _
  refine congrArg _ (funext fun a => Fin.ext ?_)
  match a with
  | ⟨0, _⟩ => show win0_1.index t (0 : Fin 2) * 5000 + 1 * (y 0).val = (k 0).val; rw [e0, hk0]; omega
  | ⟨1, _⟩ => show win0_1.index t (1 : Fin 2) * 128 + 1 * (y 1).val = (k 1).val; rw [e1, hk1]; omega

/-- The left weights' one block is the whole matrix. -/
theorem wl_blk (c : Dev nD) (t : Fin cfg0.N) :
    (iblk0 V c 2 t : S128x128.Idx → EReal) = (V c main_arg2 : S128x128.Idx → EReal) := by
  obtain ⟨-, -, -, -, e0, e1, -⟩ := idx_facts t
  funext y
  unfold iblk0
  rw [View.read_apply]
  show (V c main_arg2 : S128x128.Idx → EReal) _ = (V c main_arg2 : S128x128.Idx → EReal) _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's one block is the whole row. -/
theorem bias_blk (c : Dev nD) (t : Fin cfg0.N) :
    (iblk0 V c 3 t : S1x128.Idx → EReal) = (V c main_v25 : S1x128.Idx → EReal) := by
  obtain ⟨-, -, -, -, -, -, e0, e1, -⟩ := idx_facts t
  funext y
  unfold iblk0
  rw [View.read_apply]
  show (V c main_v25 : S1x128.Idx → EReal) _ = (V c main_v25 : S1x128.Idx → EReal) _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right weights' one block is the whole matrix. -/
theorem wr_blk (c : Dev nD) (t : Fin cfg0.N) :
    (iblk0 V c 4 t : S128x128.Idx → EReal) = (V c main_arg4 : S128x128.Idx → EReal) := by
  obtain ⟨-, -, -, -, -, -, -, -, e0, e1, -⟩ := idx_facts t
  funext y
  unfold iblk0
  rw [View.read_apply]
  show (V c main_arg4 : S128x128.Idx → EReal) _ = (V c main_arg4 : S128x128.Idx → EReal) _
  refine congrArg _ (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## What a point writes back, and the array after the run -/

/-- What point t writes back is rows 5000 t … 5000 t + 4999 of the layer of the whole arrays. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq, wl_blk, bias_blk, wr_blk]
  funext j
  obtain ⟨p, q, rfl⟩ : ∃ (p : Fin 5000) (q : Fin 128), j = ix2 p q := ⟨j 0, j 1, eq_ix2 j⟩
  rw [View.read_apply]
  obtain ⟨-, -, -, -, -, -, -, -, -, -, e0, e1⟩ := idx_facts t
  have ht : t.val < 10 := Nat.lt_of_lt_of_eq t.isLt N_0
  have hemb : ((cfg0.win 5).blk t).view.emb (ix2 p q) = ix2 (⟨5000 * t.val + p.val, by have := p.isLt; omega⟩ : Fin 50000) q := by
    refine funext fun a => Fin.ext ?_
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega
  rw [hemb]
  show relu (conv _ _ _ _ _) (ix2 p q) = relu (conv _ _ _ _ _) (ix2 _ q)
  unfold relu
  rw [conv_ix2, conv_ix2]
  rw [convAt_rows (V c main_v24 : S50000x128.Idx → EReal) (V c main_arg0 : S50000x128.Idx → EReal) (iblk0 V c 0 t) (iblk0 V c 1 t) _ _ _ p ⟨5000 * t.val + p.val, by have := p.isLt; omega⟩ q
    (fun k => mean_blk V c t (ix2 p k) (ix2 _ k) rfl rfl) (fun k => feat_blk V c t (ix2 p k) (ix2 _ k) rfl rfl)]

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The ten row blocks tile the output: row r is in the block of point r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, -, e0, e1⟩ := idx_facts t
  have et : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, et]; omega
  | ⟨1, _⟩ => show win0_5.index t (1 : Fin 2) * 128 ≤ (i 1).val ∧ (i 1).val < win0_5.index t (1 : Fin 2) * 128 + 128; rw [e1]; omega

/-- After the run the output array is the layer of the arrays as the region found them. -/
theorem array_eq (c : Dev nD) : (dat0 (F := Ideal) V c).arrAt 5 cfg0.N = layer V c :=
  (dat0 V c).arrAt_eq_of_cover 5 (layer V c) (fun t _ => flushed_eq V c t) covered

end Cert.KernelIdeal.Region0

end
-- ==== Proof.KBody1.lean ====
/-
  What one grid point of the second layer's kernel stores, as a function of the five blocks it loads, over the extended
  reals: the block of rows of the layer (no activation after the last layer).

  As in the first layer the operands' narrowing casts are the identity, each product on the matrix unit into a zero
  accumulator is the plain sum over the 128 contracted features, and the bias row is broadcast down the rows between
  the two products. Entry (p, q), q one of 40 output features, is
      Σ_k mean[p,k]·Wl[k,q] + b[0,q] + Σ_k h[p,k]·Wr[k,q].
-/
import proofs.«131667_j30116310680318_1_alg».proof.Proof.Gen.KernelIdeal.Skeleton
import proofs.«131667_j30116310680318_1_alg».proof.Proof.SageSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.SageSpec

/-! ## The second layer's matrix product read at an entry -/

theorem lhs1_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs1_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs1_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs1_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- A product on the matrix unit into a zero accumulator, read at entry (p, q): the sum over the contracted feature k
    of row p of the left operand times column q of the right. -/
theorem mm1_at {φ₁ φ₂ : FTy} (l : FVec Ideal S5000x128 φ₁) (r : FVec Ideal S128x40 φ₂) (p : Fin 5000) (q : Fin 40) :
    matmul dot_S5000x128_S128x40_S5000x40_1_0_0_1_n_n none l r (constant S5000x40 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The bias row broadcast down the 5000 rows, read at entry (p, q): the row's entry q. -/
theorem bias1_at (v : Vec Ideal S1x40 .f32) (p : Fin 5000) (q : Fin 40) :
    broadcastTo S5000x40 (shapeCast S1x40 v Facts₀.shapeCasts_S1x40_S1x40) Facts₀.broadcasts_S1x40_S5000x40 (ix2 p q)
      = v (ix2 (0 : Fin 1) q) := by
  rw [shapeCast_self]
  refine broadcastTo_apply v _ (ix2 p q) (ix2 (0 : Fin 1) q) fun a => ?_
  match a with
  | ⟨0, _⟩ => show (0 : Nat) = if (1 : Nat) = 1 then 0 else _; rw [if_pos rfl]
  | ⟨1, _⟩ => show q.val = if (40 : Nat) = 1 then 0 else q.val; rw [if_neg (by decide)]

/-- What a grid point of the second layer's kernel stores: the layer of its blocks. -/
theorem pay1_eq (v0 v3 : Vec Ideal S5000x128 .f32) (v6 v8 : Vec Ideal S128x40 .f32) (v11 : Vec Ideal S1x40 .f32) :
    k1_pay1 (F := Ideal) v0 v3 v6 v8 v11 = conv v0 v3 v6 (fun q => v11 (ix2 (0 : Fin 1) q)) v8 := by
  funext i
  obtain ⟨p, q, rfl⟩ : ∃ (p : Fin 5000) (q : Fin 40), i = ix2 p q := ⟨i 0, i 1, eq_ix2 i⟩
  unfold k1_pay1
  rw [addf_apply, addf_apply, mm1_at, mm1_at, bias1_at]
  simp only [shapeCast_self]
  rfl

end Cert.KernelIdeal.Body

end
-- ==== Proof.KRegion1.lean ====
/-
  The second layer's pallas_call, blocks to array: the result after the run as one function of the region's arrays.

  The pallas_call tiles the 50000 node rows into ten blocks of 5000: grid point t loads rows 5000 t … 5000 t + 4999 of
  the mean matrix and of the feature matrix, the two weight matrices and the bias row whole, and writes rows
  5000 t … 5000 t + 4999 of the output. What it stores is the layer of its blocks (the body's payload, read entry by
  entry); a layer is row-wise, so that is the same rows of the layer of the WHOLE matrices. The ten row blocks tile the
  output, so after the run the output array is the layer of the arrays as the region found them.
  Everything here is stated at arbitrary entry contents V of the buffers: which arrays those are is the host side's
  business.
-/
import proofs.«131667_j30116310680318_1_alg».proof.Proof.Gen.KernelIdeal.Frame
import proofs.«131667_j30116310680318_1_alg».proof.Proof.KBody1
import proofs.«131667_j30116310680318_1_alg».proof.Proof.SageSpec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Body Cert.SageSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays as the region finds them: what the output array is to end holding. -/
abbrev layer (c : Dev nD) : S50000x40.Idx → EReal :=
  conv (n := 50000) (fo := 40) (V c main_v39 : S50000x128.Idx → EReal) (V c main_v26 : S50000x128.Idx → EReal)
    (V c main_arg5 : S128x40.Idx → EReal) (fun q => (V c main_v40 : S1x40.Idx → EReal) (ix2 (0 : Fin 1) q)) (V c main_arg7 : S128x40.Idx → EReal)

/-- The printed index maps, decided over the ten grid points: the row-tiled windows (mean, features, output) are at
    block (t, 0), the whole-array windows (weights, bias) at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block as entries of its array -/

/-- Row r of the mean block at point t is row 5000 t + r of the mean matrix. -/
theorem mean_blk (c : Dev nD) (t : Fin cfg1.N) (y : S5000x128.Idx) (k : S50000x128.Idx)
    (hk0 : (k 0).val = 5000 * t.val + (y 0).val) (hk1 : (k 1).val = (y 1).val) :
    (iblk1 V c 0 t : S5000x128.Idx → EReal) y = (V c main_v39 : S50000x128.Idx → EReal) k := by
  obtain ⟨e0, e1, -⟩ := idx_facts t
  unfold iblk1
  rw [View.read_apply]
  show (V c main_v39 : S50000x128.Idx → EReal) _ = (V c main_v39 : S50000x128.Idx → EReal) _
  refine congrArg _ (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- Row r of the feature block at point t is row 5000 t + r of the feature matrix. -/
theorem feat_blk (c : Dev nD) (t : Fin cfg1.N) (y : S5000x128.Idx) (k : S50000x128.Idx)
    (hk0 : (k 0).val = 5000 * t.val + (y 0).val) (hk1 : (k 1).val = (y 1).val) :
    (iblk1 V c 1 t : S5000x128.Idx → EReal) y = (V c main_v26 : S50000x128.Idx → EReal) k := by
  obtain ⟨-, -, e0, e1, -⟩ := idx_facts t
  unfold iblk1
  rw [View.read_apply]
  show (V c main_v26 : S50000x128.Idx → EReal) _ = (V c main_v26 : S50000x128.Idx → EReal) _
  refine congrArg _ (funext fun a => Fin.ext ?_)
  match a with
  | ⟨0, _⟩ => show win1_1.index t (0 : Fin 2) * 5000 + 1 * (y 0).val = (k 0).val; rw [e0, hk0]; omega
  | ⟨1, _⟩ => show win1_1.index t (1 : Fin 2) * 128 + 1 * (y 1).val = (k 1).val; rw [e1, hk1]; omega

/-- The left weights' one block is the whole matrix. -/
theorem wl_blk (c : Dev nD) (t : Fin cfg1.N) :
    (iblk1 V c 2 t : S128x40.Idx → EReal) = (V c main_arg5 : S128x40.Idx → EReal) := by
  obtain ⟨-, -, -, -, e0, e1, -⟩ := idx_facts t
  funext y
  unfold iblk1
  rw [View.read_apply]
  show (V c main_arg5 : S128x40.Idx → EReal) _ = (V c main_arg5 : S128x40.Idx → EReal) _
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 40 + 1 * (y 1).val = (y 1).val; rw [e1]; omega

/-- The bias row's one block is the whole row. -/
theorem bias_blk (c : Dev nD) (t : Fin cfg1.N) :
    (iblk1 V c 3 t : S1x40.Idx → EReal) = (V c main_v40 : S1x40.Idx → EReal) := by
  obtain ⟨-, -, -, -, -, -, e0, e1, -⟩ := idx_facts t
  funext y
  unfold iblk1
  rw [View.read_apply]
  show (V c main_v40 : S1x40.Idx → EReal) _ = (V c main_v40 : S1x40.Idx → EReal) _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 40 + 1 * (y 1).val = (y 1).val; rw [e1]; omega

/-- The right weights' one block is the whole matrix. -/
theorem wr_blk (c : Dev nD) (t : Fin cfg1.N) :
    (iblk1 V c 4 t : S128x40.Idx → EReal) = (V c main_arg7 : S128x40.Idx → EReal) := by
  obtain ⟨-, -, -, -, -, -, -, -, e0, e1, -⟩ := idx_facts t
  funext y
  unfold iblk1
  rw [View.read_apply]
  show (V c main_arg7 : S128x40.Idx → EReal) _ = (V c main_arg7 : S128x40.Idx → EReal) _
  refine congrArg _ (funext fun a => Fin.ext ?_)
  match a with
  | ⟨0, _⟩ => show win1_4.index t (0 : Fin 2) * 128 + 1 * (y 0).val = (y 0).val; rw [e0]; omega
  | ⟨1, _⟩ => show win1_4.index t (1 : Fin 2) * 40 + 1 * (y 1).val = (y 1).val; rw [e1]; omega

/-! ## What a point writes back, and the array after the run -/

/-- What point t writes back is rows 5000 t … 5000 t + 4999 of the layer of the whole arrays. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x40) hz, View.ld_unit_zero (S := S1x40) hz]
  rw [pay1_eq, wl_blk, bias_blk, wr_blk]
  funext j
  obtain ⟨p, q, rfl⟩ : ∃ (p : Fin 5000) (q : Fin 40), j = ix2 p q := ⟨j 0, j 1, eq_ix2 j⟩
  rw [View.read_apply]
  obtain ⟨-, -, -, -, -, -, -, -, -, -, e0, e1⟩ := idx_facts t
  have ht : t.val < 10 := Nat.lt_of_lt_of_eq t.isLt N_1
  have hemb : ((cfg1.win 5).blk t).view.emb (ix2 p q) = ix2 (⟨5000 * t.val + p.val, by have := p.isLt; omega⟩ : Fin 50000) q := by
    refine funext fun a => Fin.ext ?_
    match a with
    | ⟨0, _⟩ => show win1_5.index t (0 : Fin 2) * 5000 + 1 * p.val = 5000 * t.val + p.val; rw [e0]; omega
    | ⟨1, _⟩ => show win1_5.index t (1 : Fin 2) * 40 + 1 * q.val = q.val; rw [e1]; omega
  rw [hemb]
  show conv _ _ _ _ _ (ix2 p q) = conv _ _ _ _ _ (ix2 _ q)
  rw [conv_ix2, conv_ix2]
  rw [convAt_rows (V c main_v39 : S50000x128.Idx → EReal) (V c main_v26 : S50000x128.Idx → EReal) (iblk1 V c 0 t) (iblk1 V c 1 t) _ _ _ p ⟨5000 * t.val + p.val, by have := p.isLt; omega⟩ q
    (fun k => mean_blk V c t (ix2 p k) (ix2 _ k) rfl rfl) (fun k => feat_blk V c t (ix2 p k) (ix2 _ k) rfl rfl)]

/-- An index of the output array is in point t's block iff each coordinate is in the block's range on its axis. -/
theorem mem_blk (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v41).slice (win1_5.rect t)).set ↔ _
  rw [View.set_slice_whole, Rect.mem_set_unit]
  exact Iff.rfl

/-- The ten row blocks tile the output: row r is in the block of point r / 5000. -/
theorem covered (i : S50000x40.Idx) :
    ∃ t : Fin cfg1.N, (cfg1.win 5).flush t = true ∧ i ∈ ((cfg1.win 5).blk t).view.set := by
  have hi0 : (i 0).val < 50000 := (i 0).isLt
  have hi1 : (i 1).val < 40 := (i 1).isLt
  let t : Fin cfg1.N := ⟨(i 0).val / 5000, by rw [show cfg1.N = 10 from N_1]; omega⟩
  obtain ⟨-, -, -, -, -, -, -, -, -, -, e0, e1⟩ := idx_facts t
  have et : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, et]; omega
  | ⟨1, _⟩ => show win1_5.index t (1 : Fin 2) * 40 ≤ (i 1).val ∧ (i 1).val < win1_5.index t (1 : Fin 2) * 40 + 40; rw [e1]; omega

/-- After the run the output array is the layer of the arrays as the region found them. -/
theorem array_eq (c : Dev nD) : (dat1 (F := Ideal) V c).arrAt 5 cfg1.N = layer V c :=
  (dat1 V c).arrAt_eq_of_cover 5 (layer V c) (fun t _ => flushed_eq V c t) covered

end Cert.KernelIdeal.Region1

end
-- ==== Proof.KHost.lean ====
/-
  The host operations around the two pallas_calls: what each region's input arrays hold when the region is entered.

  Before the first region the program splits the edge list into source and destination vectors, counts each node's
  incoming edges by a scatter-add of ones and clamps the count below at one (deg), takes the reciprocal 1 / deg once,
  gathers the source rows of the feature matrix and scatter-adds them into their destination rows (the edge
  aggregation, agg), and multiplies row p of the result by 1 / deg[p]: the first region's mean operand. The bias vector
  is reshaped to a one-row matrix. Between the regions the same gather, scatter-add and scaling are applied to the
  first region's output, with the SAME source, destination and reciprocal vectors. The gather and the scatter-add are
  never opened: they are one named function of the index vectors and of the matrix they aggregate.

-/
import proofs.«131667_j30116310680318_1_alg».proof.Proof.Gen.KernelIdeal.Frame
import proofs.«131667_j30116310680318_1_alg».proof.Proof.SageSpec
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen Cert.SageSpec
open Idealize.ShloMosaic Idealize.ShloMosaic.TcCoe Idealize.ShloMosaic.ValueIdx Idealize.SL.Sem Idealize.ShloMosaic.StableHlo

variable {F : FTy → Type} [FloatOps F]

/-! ## The shared host functions -/

/-- The source node of each edge: row 0 of the edge list. -/
def srcOf (e : (⟨S2x800000, .i32⟩ : BufTy).Contents (Elt F)) : (⟨S800000, .i32⟩ : BufTy).Contents (Elt F) :=
  shapeCast S800000 (extractStridedSlice S1x800000 ![0, 0] e Facts₀.slices_S2x800000_S1x800000_0_0) Facts₀.shapeCasts_S1x800000_S800000

/-- The destination node of each edge: row 1 of the edge list. -/
def dstOf (e : (⟨S2x800000, .i32⟩ : BufTy).Contents (Elt F)) : (⟨S800000, .i32⟩ : BufTy).Contents (Elt F) :=
  shapeCast S800000 (extractStridedSlice S1x800000 ![1, 0] e Facts₀.slices_S2x800000_S1x800000_1_0) Facts₀.shapeCasts_S1x800000_S800000

/-- The edge aggregation: into each destination row, the sum over its incoming edges of the source row of x (a negative
    source index counts from the end). -/
def aggOf (src dst : (⟨S800000, .i32⟩ : BufTy).Contents (Elt F)) (x : (⟨S50000x128, .f32⟩ : BufTy).Contents (Elt F)) :
    (⟨S50000x128, .f32⟩ : BufTy).Contents (Elt F) :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 dst)
    (Host.gather gather_S50000x128_S800000x1_S800000x128_1_0_n_n_0_1_1128 x
      (broadcastInDim S800000x1 ![0] Facts₀.bcast_S800000_S800000x1_0
        (select (cmpi .slt src (broadcastInDim S800000 ![] Facts₀.bcast_S_S800000 (constantI S_ 32 0#32)))
          (addi src (broadcastInDim S800000 ![] Facts₀.bcast_S_S800000 (constantI S_ 32 50000#32))) src)))

/-- Each node's number of incoming edges: ones scatter-added at the destinations. -/
def countOf (dst : (⟨S800000, .i32⟩ : BufTy).Contents (Elt F)) : (⟨S50000, .f32⟩ : BufTy).Contents (Elt F) :=
  Host.scatterAdd scatter_S50000_S800000x1_S800000_n_0_0_1
    (broadcastInDim S50000 ![] Facts₀.bcast_S_S50000 (constant S_ .f32 0x00000000#32))
    (broadcastInDim S800000x1 ![0] Facts₀.bcast_S800000_S800000x1_0 dst)
    (broadcastInDim S800000 ![] Facts₀.bcast_S_S800000 (constant S_ .f32 0x3F800000#32))

/-- The number of incoming edges clamped below at one. -/
def degOf (dst : (⟨S800000, .i32⟩ : BufTy).Contents (Elt F)) : (⟨S50000, .f32⟩ : BufTy).Contents (Elt F) :=
  maximumf (countOf dst) (broadcastInDim S50000 ![] Facts₀.bcast_S_S50000 (constant S_ .f32 0x3F800000#32))

/-- One over the clamped degree. -/
def recipOf (dst : (⟨S800000, .i32⟩ : BufTy).Contents (Elt F)) : (⟨S50000, .f32⟩ : BufTy).Contents (Elt F) :=
  Host.divf (broadcastInDim S50000 ![] Facts₀.bcast_S_S50000 (constant S_ .f32 0x3F800000#32)) (degOf dst)

/-- The aggregation with row p scaled by r[p]. -/
def meanBy (src dst : (⟨S800000, .i32⟩ : BufTy).Contents (Elt F)) (r : (⟨S50000, .f32⟩ : BufTy).Contents (Elt F))
    (x : (⟨S50000x128, .f32⟩ : BufTy).Contents (Elt F)) : (⟨S50000x128, .f32⟩ : BufTy).Contents (Elt F) :=
  mulf (aggOf src dst x)
    (broadcastInDim S50000x128 ![0, 1] Facts₀.bcast_S50000x1_S50000x128_0_1 (broadcastInDim S50000x1 ![0] Facts₀.bcast_S50000_S50000x1_0 r))

variable (m : (ℓ : Loc nD τ sig) → Buf (Elt F) ℓ) (ρ : Dev nD → PrngReg)

/-! ## The first region's arrays at its entry -/

theorem entry0_mean (c : Dev nD) :
    V1 m ρ c main_v24 = meanBy (srcOf (m ((c : Thread nD τ).loc main_arg1))) (dstOf (m ((c : Thread nD τ).loc main_arg1)))
      (recipOf (dstOf (m ((c : Thread nD τ).loc main_arg1)))) (m ((c : Thread nD τ).loc main_arg0)) := by
  show StableHlo.after hostOps0 (W0 m ρ c) (Proc.devRef .tc main_v24) = _
  after_results_simp
  rfl

theorem entry0_bias (c : Dev nD) :
    V1 m ρ c main_v25 = shapeCast S1x128 (m ((c : Thread nD τ).loc main_arg3)) Facts₀.shapeCasts_S128_S1x128 := by
  show StableHlo.after hostOps0 (W0 m ρ c) (Proc.devRef .tc main_v25) = _
  after_results_simp
  rfl

theorem entry0_x (c : Dev nD) : V1 m ρ c main_arg0 = m ((c : Thread nD τ).loc main_arg0) := by
  show StableHlo.after hostOps0 (W0 m ρ c) (Proc.devRef .tc main_arg0) = _
  after_results_simp

theorem entry0_wl (c : Dev nD) : V1 m ρ c main_arg2 = m ((c : Thread nD τ).loc main_arg2) := by
  show StableHlo.after hostOps0 (W0 m ρ c) (Proc.devRef .tc main_arg2) = _
  after_results_simp

theorem entry0_wr (c : Dev nD) : V1 m ρ c main_arg4 = m ((c : Thread nD τ).loc main_arg4) := by
  show StableHlo.after hostOps0 (W0 m ρ c) (Proc.devRef .tc main_arg4) = _
  after_results_simp

/-! ## What the second stretch reads of the first -/

theorem mid_src (c : Dev nD) : W1 m ρ c (Proc.devRef .tc main_v1) = srcOf (m ((c : Thread nD τ).loc main_arg1)) := by
  show StableHlo.after hostOps0 (W0 m ρ c) (Proc.devRef .tc main_v1) = _
  after_results_simp
  rfl

theorem mid_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

theorem mid_recip (c : Dev nD) :
    W1 m ρ c (Proc.devRef .tc main_v11) = recipOf (dstOf (m ((c : Thread nD τ).loc main_arg1))) := by
  show StableHlo.after hostOps0 (W0 m ρ c) (Proc.devRef .tc main_v11) = _
  after_results_simp
  rfl

theorem mid_b2 (c : Dev nD) : W1 m ρ c (Proc.devRef .tc main_arg6) = m ((c : Thread nD τ).loc main_arg6) := by
  show StableHlo.after hostOps0 (W0 m ρ c) (Proc.devRef .tc main_arg6) = _
  after_results_simp

/-! ## The second region's arrays at its entry -/

/-- The first region's output as the second stretch finds it. -/
theorem entry1_h (c : Dev nD) : V3 m ρ c main_v26 = (dat0 (V1 m ρ) c).arrAt 5 cfg0.N := by
  have h : V3 m ρ c main_v26 = W2 m ρ c (Proc.devRef .tc main_v26) := by
    show StableHlo.after hostOps1 (W2 m ρ c) (Proc.devRef .tc main_v26) = _
    after_results_simp
  exact h.trans (W2_arr m ρ c 5)

theorem entry1_mean (c : Dev nD) :
    V3 m ρ c main_v39 = meanBy (srcOf (m ((c : Thread nD τ).loc main_arg1))) (dstOf (m ((c : Thread nD τ).loc main_arg1)))
      (recipOf (dstOf (m ((c : Thread nD τ).loc main_arg1)))) ((dat0 (V1 m ρ) c).arrAt 5 cfg0.N) := by
  have h : V3 m ρ c main_v39 = meanBy (W2 m ρ c (Proc.devRef .tc main_v1)) (W2 m ρ c (Proc.devRef .tc main_v3))
      (W2 m ρ c (Proc.devRef .tc main_v11)) (W2 m ρ c (Proc.devRef .tc main_v26)) := by
    show StableHlo.after hostOps1 (W2 m ρ c) (Proc.devRef .tc main_v39) = _
    after_results_simp
    rfl
  rw [h, W2_of_ne m ρ c main_v1 (by decide), W2_of_ne m ρ c main_v3 (by decide), W2_of_ne m ρ c main_v11 (by decide),
    mid_src, mid_dst, mid_recip]
  exact congrArg _ (W2_arr m ρ c 5)

theorem entry1_bias (c : Dev nD) :
    V3 m ρ c main_v40 = shapeCast S1x40 (m ((c : Thread nD τ).loc main_arg6)) Facts₀.shapeCasts_S40_S1x40 := by
  have h : V3 m ρ c main_v40 = shapeCast S1x40 (W2 m ρ c (Proc.devRef .tc main_arg6)) Facts₀.shapeCasts_S40_S1x40 := by
    show StableHlo.after hostOps1 (W2 m ρ c) (Proc.devRef .tc main_v40) = _
    after_results_simp
    rfl
  rw [h, W2_of_ne m ρ c main_arg6 (by decide), mid_b2]

/-- A weight matrix neither a host operation nor a region writes is the launch's. -/
theorem entry1_wl (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)

theorem entry1_wr (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

end Cert.KernelIdeal.Host

end
-- ==== Proof.KMean.lean ====
/-
  The scaled aggregation read at an entry over the extended reals, and the bias rows read at an entry.

  The reciprocal vector is broadcast to a column and then across the 128 columns, so at entry (p, k) the scaling factor
  is the vector's entry p: the mean operand is agg[p, k] · (1 / deg[p]) — the reciprocal spelling of the mean. The
  clamped degree is a maximum with one, so it is never zero. A bias vector reshaped to a one-row matrix has at (0, q)
  the vector's entry q.
-/
import proofs.«131667_j30116310680318_1_alg».proof.Proof.KHost
import proofs.«131667_j30116310680318_1_alg».proof.Proof.SageSpec
import Idealize.ShloMosaic.Lib.Pipeline.Value
import Idealize.ShloMosaic.Lib.ValueIdx

noncomputable section

namespace Cert.KernelIdeal.Host

open Cert.KernelIdeal Cert.SageSpec
open Idealize.ShloMosaic Idealize.ShloMosaic.ValueIdx

/-- A vector over the nodes broadcast to a column and then across the 128 columns, read at an entry: the vector's
    entry at the row. -/
theorem rowBcast_at {α : Type} (r : S50000.Idx → α) (i : S50000x128.Idx) :
    broadcastInDim S50000x128 ![0, 1] Facts₀.bcast_S50000x1_S50000x128_0_1
      (broadcastInDim S50000x1 ![0] Facts₀.bcast_S50000_S50000x1_0 r) i = r (ix1 (i 0)) := by
  generalize hy : broadcastInDim S50000x1 ![0] Facts₀.bcast_S50000_S50000x1_0 r = y
  refine (broadcastInDim_apply _ Facts₀.bcast_S50000x1_S50000x128_0_1 y i (ix2 (i 0) (0 : Fin 1)) (fun a => ?_)).trans ?_
  · match a with
    | ⟨0, _⟩ => show (i 0).val = if (50000 : Nat) = 1 then 0 else (i 0).val; rw [if_neg (by decide)]
    | ⟨1, _⟩ => show 0 = if (1 : Nat) = 1 then 0 else (i 1).val; rw [if_pos rfl]
  · subst hy
    exact broadcastInDim_apply _ Facts₀.bcast_S50000_S50000x1_0 r (ix2 (i 0) (0 : Fin 1)) (ix1 (i 0)) (fun a => by
      match a with
      | ⟨0, _⟩ => show (i 0).val = if (50000 : Nat) = 1 then 0 else (i 0).val; rw [if_neg (by decide)])

/-- A count clamped below at one, at a node: the larger of the count and one. -/
theorem clamp_at (cnt : S50000.Idx → EReal) (j : S50000.Idx) :
    maximumf (F := Ideal) (φ := .f32) cnt (broadcastInDim S50000 ![] Facts₀.bcast_S_S50000 (constant S_ .f32 0x3F800000#32)) j
      = max (cnt j) (Ideal.ofBits .f32 0x3F800000#32) := rfl

/-- One over a vector, at a node: the quotient of one by the vector's entry. -/
theorem recip_at (d : S50000.Idx → EReal) (j : S50000.Idx) :
    Host.divf (F := Ideal) (φ := .f32) (broadcastInDim S50000 ![] Facts₀.bcast_S_S50000 (constant S_ .f32 0x3F800000#32)) d j
      = Ideal.div (Ideal.ofBits .f32 0x3F800000#32) (d j) := rfl

/-- The mean operand is the aggregation with each row times one over its node's clamped degree (the aggregation and
    the degree vector enter as opaque arrays: nothing here looks inside a scatter-add). -/
theorem meanBy_eq (src dst : (⟨S800000, .i32⟩ : BufTy).Contents (Elt Ideal)) (x : (⟨S50000x128, .f32⟩ : BufTy).Contents (Elt Ideal)) :
    (meanBy (F := Ideal) src dst (recipOf dst) x : S50000x128.Idx → EReal)
      = scaledBy (n := 50000) (aggOf (F := Ideal) src dst x) (fun p => degOf (F := Ideal) dst (ix1 p)) := by
  unfold meanBy recipOf
  generalize aggOf (F := Ideal) src dst x = A
  generalize degOf (F := Ideal) dst = D
  funext i
  rw [mulf_apply, rowBcast_at, recip_at]
  rfl

/-- The clamped degree is never zero. -/
theorem deg_ne_zero (dst : (⟨S800000, .i32⟩ : BufTy).Contents (Elt Ideal)) (p : Fin 50000) :
    degOf (F := Ideal) dst (ix1 p) ≠ 0 := by
  unfold degOf
  generalize countOf (F := Ideal) dst = cnt
  rw [clamp_at]
  exact clamp_ne_zero _

/-- The first layer's bias as a one-row matrix, read at (0, q). -/
theorem bias128_at (b : (⟨S128, .f32⟩ : BufTy).Contents (Elt Ideal)) (q : Fin 128) :
    shapeCast S1x128 b Facts₀.shapeCasts_S128_S1x128 (ix2 (0 : Fin 1) q) = b (ix1 q) := by
  refine (shapeCast_addUnit_apply ![128] b Facts₀.shapeCasts_S128_S1x128 (ix2 (0 : Fin 1) q)).trans ?_
  exact congrArg b (funext fun a => by match a with | ⟨0, _⟩ => rfl)

/-- The second layer's bias as a one-row matrix, read at (0, q). -/
theorem bias40_at (b : (⟨S40, .f32⟩ : BufTy).Contents (Elt Ideal)) (q : Fin 40) :
    shapeCast S1x40 b Facts₀.shapeCasts_S40_S1x40 (ix2 (0 : Fin 1) q) = b (ix1 q) := by
  refine (shapeCast_addUnit_apply ![40] b Facts₀.shapeCasts_S40_S1x40 (ix2 (0 : Fin 1) q)).trans ?_
  exact congrArg b (funext fun a => by match a with | ⟨0, _⟩ => rfl)

end Cert.KernelIdeal.Host

end
-- ==== Proof.KValue.lean ====
/-
  The kernel program's result over the extended reals is the two-layer network as one function of its arguments.

  The second region's output array is the second layer of the arrays that region finds (blocks to array); those are
  the scaled aggregation of the first region's output, that output itself, and the launch's second-layer weights and
  bias. The first region's output is the first layer, activation applied, of the scaled aggregation of the features,
  the features and the launch's first-layer weights and bias. Each scaled aggregation is the mean by division, because
  no clamped degree is zero. Put together, the result array is the network of the launch's arrays.
-/
import proofs.«131667_j30116310680318_1_alg».proof.Proof.KernelRun
import proofs.«131667_j30116310680318_1_alg».proof.Proof.KRegion0
import proofs.«131667_j30116310680318_1_alg».proof.Proof.KRegion1
import proofs.«131667_j30116310680318_1_alg».proof.Proof.KHost
import proofs.«131667_j30116310680318_1_alg».proof.Proof.KMean
import proofs.«131667_j30116310680318_1_alg».proof.Proof.SageSpec

set_option maxRecDepth 16384

noncomputable section

namespace Cert.KernelIdeal.Net

open Cert.KernelIdeal Cert.KernelIdeal.Gen Cert.KernelIdeal.Host Cert.SageSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edge aggregation at the launch's edge list. -/
abbrev aggK (c : Dev nD) : Mat 50000 128 → Mat 50000 128 :=
  aggOf (F := Ideal) (srcOf (m ((c : Thread nD τ).loc main_arg1))) (dstOf (m ((c : Thread nD τ).loc main_arg1)))

/-- The clamped degree of node p at the launch's edge list. -/
abbrev degK (c : Dev nD) : Fin 50000 → EReal :=
  fun p => degOf (F := Ideal) (dstOf (m ((c : Thread nD τ).loc main_arg1))) (ix1 p)

/-- The first layer with its activation, of the launch's arrays. -/
abbrev hiddenK (c : Dev nD) : Mat 50000 128 :=
  relu (conv (n := 50000) (fo := 128) (meanOf (aggK m c (m ((c : Thread nD τ).loc main_arg0))) (degK m c))
    (m ((c : Thread nD τ).loc main_arg0)) (m ((c : Thread nD τ).loc main_arg2))
    (fun q => m ((c : Thread nD τ).loc main_arg3) (ix1 q)) (m ((c : Thread nD τ).loc main_arg4)))

/-- The network is its second layer applied to its hidden features — for ANY aggregation A and degree vector D, so
    that nothing here looks inside either. -/
theorem net_of_hidden (A : Mat 50000 128 → Mat 50000 128) (D : Fin 50000 → EReal) (x : Mat 50000 128)
    (wl1 : Mat 128 128) (b1 : Fin 128 → EReal) (wr1 : Mat 128 128) (wl2 : Mat 128 40) (b2 : Fin 40 → EReal) (wr2 : Mat 128 40)
    (h : Mat 50000 128) (hh : h = relu (conv (meanOf (A x) D) x wl1 b1 wr1)) :
    conv (meanOf (A h) D) h wl2 b2 wr2 = net A D x wl1 b1 wr1 wl2 b2 wr2 := by
  subst hh
  rfl

/-- The first region leaves the hidden features in its output array. -/
theorem hidden_eq (c : Dev nD) : (dat0 (F := Ideal) (V1 m ρ) c).arrAt 5 cfg0.N = hiddenK m c := by
  have hb : (fun q : Fin 128 => shapeCast S1x128 (m ((c : Thread nD τ).loc main_arg3)) Facts₀.shapeCasts_S128_S1x128 (ix2 (0 : Fin 1) q))
      = fun q => m ((c : Thread nD τ).loc main_arg3) (ix1 q) := funext fun q => bias128_at _ q
  rw [Region0.array_eq (V1 m ρ) c]
  unfold Region0.layer
  rw [entry0_mean, entry0_x, entry0_wl, entry0_wr, entry0_bias, meanBy_eq, scaled_eq_mean _ _ (deg_ne_zero _), hb]

/-- The second layer of the arrays the second region finds, in terms of the launch's arrays. -/
theorem layer1_entry (c : Dev nD) :
    Region1.layer (V3 m ρ) c
      = conv (n := 50000) (fo := 40) (meanOf (aggK m c (hiddenK m c)) (degK m c)) (hiddenK m c)
          (m ((c : Thread nD τ).loc main_arg5)) (fun q => m ((c : Thread nD τ).loc main_arg6) (ix1 q))
          (m ((c : Thread nD τ).loc main_arg7)) := by
  have hb : (fun q : Fin 40 => shapeCast S1x40 (m ((c : Thread nD τ).loc main_arg6)) Facts₀.shapeCasts_S40_S1x40 (ix2 (0 : Fin 1) q))
      = fun q => m ((c : Thread nD τ).loc main_arg6) (ix1 q) := funext fun q => bias40_at _ q
  unfold Region1.layer
  rw [entry1_mean, entry1_h, entry1_wl, entry1_wr, entry1_bias, hidden_eq, meanBy_eq, scaled_eq_mean _ _ (deg_ne_zero _), hb]

/-- The second region leaves the network's result in its output array. -/
theorem result_eq (c : Dev nD) :
    (dat1 (F := Ideal) (V3 m ρ) c).arrAt 5 cfg1.N
      = net (aggK m c) (degK m c) (m ((c : Thread nD τ).loc main_arg0)) (m ((c : Thread nD τ).loc main_arg2))
          (fun q => m ((c : Thread nD τ).loc main_arg3) (ix1 q)) (m ((c : Thread nD τ).loc main_arg4))
          (m ((c : Thread nD τ).loc main_arg5)) (fun q => m ((c : Thread nD τ).loc main_arg6) (ix1 q))
          (m ((c : Thread nD τ).loc main_arg7)) :=
  (Region1.array_eq (V3 m ρ) c).trans ((layer1_entry m ρ c).trans
    (net_of_hidden (aggK m c) (degK m c) _ _ _ _ _ _ _ (hiddenK m c) rfl))

/-- Every weakly fair execution of the kernel program terminates without a fault, with the result array at the network
    of the launch's arrays and every argument array as launched. -/
theorem run : θ_run defs (onTc (τ := τ) (main (F := Ideal))) ⟨m, fun _ => 0, ρ⟩ (fun r => ∀ c : Dev nD,
      r.2.mem ((c.tc : Thread nD τ).loc main_v41)
        = net (aggK m c) (degK m c) (m ((c : Thread nD τ).loc main_arg0)) (m ((c : Thread nD τ).loc main_arg2))
            (fun q => m ((c : Thread nD τ).loc main_arg3) (ix1 q)) (m ((c : Thread nD τ).loc main_arg4))
            (m ((c : Thread nD τ).loc main_arg5)) (fun q => m ((c : Thread nD τ).loc main_arg6) (ix1 q))
            (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.NamedRun.run_named m ρ)

end Cert.KernelIdeal.Net

end
-- ==== Proof.RefValue.lean ====
/-
  The reference over the extended reals is the two-layer network as one function of its arguments.

  The reference computes each layer on the host: the edge aggregation (a gather of source rows scatter-added into
  destination rows), each row divided by its node's in-degree clamped below at one, a matrix product with the left
  weights, the bias broadcast down the rows, a matrix product of the layer's input with the right weights, and between
  the layers the maximum with zero. Each stage is read at an entry by the generated lemmas; a host matrix product at an
  entry is the plain sum over the 128 contracted features. The gather and the scatter-add are not opened: they are the
  function aggR of the edge list and the matrix they aggregate, the same in both layers, and the clamped degree degR
  is the same vector in both layers.
-/
import proofs.«131667_j30116310680318_1_alg».proof.Defs
import proofs.«131667_j30116310680318_1_alg».proof.Proof.Gen.ReferenceIdeal.Run
import proofs.«131667_j30116310680318_1_alg».proof.Proof.Gen.ReferenceIdeal.Read
import proofs.«131667_j30116310680318_1_alg».proof.Proof.SageSpec
import Idealize.ShloMosaic.Lib.ValueIdx

noncomputable section

namespace Cert.ReferenceIdeal.RefValue

open Cert.ReferenceIdeal Cert.ReferenceIdeal.Gen Cert.ReferenceIdeal.Read Cert.SageSpec
open Idealize.ShloMosaic Idealize.ShloMosaic.TcCoe Idealize.ShloMosaic.ValueIdx Idealize.SL.Sem

/-- The reference's edge aggregation of a matrix x: the gather of its source rows scatter-added into destination rows. -/
def aggR {F : FTy → Type} [FloatOps F] (e : (⟨S2x800000, .i32⟩ : BufTy).Contents (Elt F)) (x : (⟨S50000x128, .f32⟩ : BufTy).Contents (Elt F)) :
    (⟨S50000x128, .f32⟩ : BufTy).Contents (Elt F) :=
  Host.scatterAdd scatter_S50000x128_S800000x1_S800000x128_1_0_0_1 (val_main_v11 (F := F)) (val_main_v12 (F := F) e)
    (Host.gather gather_S50000x128_S800000x1_S800000x128_1_0_n_n_0_1_1128 x (val_main_v9 (F := F) e))

/-- The reference's clamped in-degree of node p. -/
def degR (e : (⟨S2x800000, .i32⟩ : BufTy).Contents (Elt Ideal)) (p : Fin 50000) : EReal := val_main_v19 (F := Ideal) e (ix1 p)

variable (x0 : (⟨S50000x128, .f32⟩ : BufTy).Contents (Elt Ideal)) (e : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x40, .f32⟩ : BufTy).Contents (Elt Ideal))
  (x6 : (⟨S40, .f32⟩ : BufTy).Contents (Elt Ideal)) (x7 : (⟨S128x40, .f32⟩ : BufTy).Contents (Elt Ideal))

/-- The first layer's aggregation is aggR of the features. -/
theorem agg1_eq : val_main_v13 (F := Ideal) x0 e = aggR (F := Ideal) e x0 := rfl

/-- The second layer's aggregation is aggR of the hidden features: the same zero matrix, destination and wrapped
    source index arrays as in the first layer. -/
theorem agg2_eq : val_main_v39 (F := Ideal) x0 e x2 x3 x4 = aggR (F := Ideal) e (val_main_v29 (F := Ideal) x0 e x2 x3 x4) := rfl

/-- The second layer's clamped degree is the first's. -/
theorem deg2_eq : val_main_v45 (F := Ideal) e = val_main_v19 (F := Ideal) e := rfl

/-- The first layer's mean at an entry: the aggregated entry over the row's clamped degree. -/
theorem mean1_at (j : S50000x128.Idx) :
    val_main_v22 (F := Ideal) x0 e j = meanOf (aggR (F := Ideal) e x0) (degR e) j := by
  rw [val_main_v22_apply, val_main_v21_apply, val_main_v20_apply, agg1_eq]
  have ej : idx_main_v20 (idx_main_v21 j) = ix1 (j 0) := funext fun a => Fin.ext (by match a with | ⟨0, _⟩ => rfl)
  rw [ej]
  rfl

/-- The second layer's mean at an entry. -/
theorem mean2_at (j : S50000x128.Idx) :
    val_main_v48 (F := Ideal) x0 e x2 x3 x4 j = meanOf (aggR (F := Ideal) e (val_main_v29 (F := Ideal) x0 e x2 x3 x4)) (degR e) j := by
  rw [val_main_v48_apply, val_main_v47_apply, val_main_v46_apply, agg2_eq, deg2_eq]
  have ej : idx_main_v46 (idx_main_v47 j) = ix1 (j 0) := funext fun a => Fin.ext (by match a with | ⟨0, _⟩ => rfl)
  rw [ej]
  rfl

/-- The hidden features: the first layer, activation applied. -/
theorem hidden_eq :
    val_main_v29 (F := Ideal) x0 e x2 x3 x4
      = relu (conv (n := 50000) (fo := 128) (meanOf (aggR (F := Ideal) e x0) (degR e)) x0 x2 (fun q => x3 (ix1 q)) x4) := by
  funext i
  obtain ⟨p, q, rfl⟩ : ∃ (p : Fin 50000) (q : Fin 128), i = ix2 p q := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  have el : ∀ k : Fin 128, lidx_main_v23 (ix2 p q) k = ix2 p k := fun k => funext fun a => Fin.ext (by
    match a with | ⟨0, _⟩ => rfl | ⟨1, _⟩ => rfl)
  have er : ∀ k : Fin 128, ridx_main_v23 (ix2 p q) k = ix2 k q := fun k => funext fun a => Fin.ext (by
    match a with | ⟨0, _⟩ => rfl | ⟨1, _⟩ => rfl)
  have el' : ∀ k : Fin 128, lidx_main_v27 (ix2 p q) k = ix2 p k := fun k => funext fun a => Fin.ext (by
    match a with | ⟨0, _⟩ => rfl | ⟨1, _⟩ => rfl)
  have er' : ∀ k : Fin 128, ridx_main_v27 (ix2 p q) k = ix2 k q := fun k => funext fun a => Fin.ext (by
    match a with | ⟨0, _⟩ => rfl | ⟨1, _⟩ => rfl)
  have eb : idx_main_v24 (idx_main_v25 (ix2 p q)) = ix1 q := funext fun a => Fin.ext (by match a with | ⟨0, _⟩ => rfl)
  simp only [el, er, el', er', eb, mean1_at]
  rfl

/-- The result: the second layer of the hidden features. -/
theorem result_eq :
    val_main_v54 (F := Ideal) x0 e x2 x3 x4 x5 x6 x7
      = net (aggR (F := Ideal) e) (degR e) x0 x2 (fun q => x3 (ix1 q)) x4 x5 (fun q => x6 (ix1 q)) x7 := by
  funext i
  obtain ⟨p, q, rfl⟩ : ∃ (p : Fin 50000) (q : Fin 40), i = ix2 p q := ⟨i 0, i 1, eq_ix2 i⟩
  rw [val_main_v54_apply, val_main_v52_apply, val_main_v49_apply, val_main_v53_apply, val_main_v51_apply, val_main_v50_apply]
  have el : ∀ k : Fin 128, lidx_main_v49 (ix2 p q) k = ix2 p k := fun k => funext fun a => Fin.ext (by
    match a with | ⟨0, _⟩ => rfl | ⟨1, _⟩ => rfl)
  have er : ∀ k : Fin 128, ridx_main_v49 (ix2 p q) k = ix2 k q := fun k => funext fun a => Fin.ext (by
    match a with | ⟨0, _⟩ => rfl | ⟨1, _⟩ => rfl)
  have el' : ∀ k : Fin 128, lidx_main_v53 (ix2 p q) k = ix2 p k := fun k => funext fun a => Fin.ext (by
    match a with | ⟨0, _⟩ => rfl | ⟨1, _⟩ => rfl)
  have er' : ∀ k : Fin 128, ridx_main_v53 (ix2 p q) k = ix2 k q := fun k => funext fun a => Fin.ext (by
    match a with | ⟨0, _⟩ => rfl | ⟨1, _⟩ => rfl)
  have eb : idx_main_v50 (idx_main_v51 (ix2 p q)) = ix1 q := funext fun a => Fin.ext (by match a with | ⟨0, _⟩ => rfl)
  simp only [el, er, el', er', eb, mean2_at, hidden_eq]
  rfl

/-- The reference's run ends with its result at the network of its arguments. -/
theorem res_eq (m : (ℓ : Loc nD τ sig) → Buf (Elt Ideal) ℓ) (c : Dev nD) :
    Cert.ReferenceIdeal.Value.res_main_v54 m c
      = net (aggR (F := Ideal) (m ((c.tc : Thread nD τ).loc main_arg1))) (degR (m ((c.tc : Thread nD τ).loc main_arg1)))
          (m ((c.tc : Thread nD τ).loc main_arg0)) (m ((c.tc : Thread nD τ).loc main_arg2))
          (fun q => m ((c.tc : Thread nD τ).loc main_arg3) (ix1 q)) (m ((c.tc : Thread nD τ).loc main_arg4))
          (m ((c.tc : Thread nD τ).loc main_arg5)) (fun q => m ((c.tc : Thread nD τ).loc main_arg6) (ix1 q))
          (m ((c.tc : Thread nD τ).loc main_arg7)) :=
  (val_main_v54_eq m c).trans (result_eq _ _ _ _ _ _ _ _)

end Cert.ReferenceIdeal.RefValue

end
-- ==== Proof.lean ====
/-
  A two-layer GraphSAGE network (mean aggregation) computed two ways agrees over the extended reals.

  Both programs compute, layer by layer,
      out = mean @ Wl + b + x @ Wr,    mean[p, ·] = (Σ over edges e into p of x[src e, ·]) / max(deg p, 1),
  with the maximum with zero between the layers. The kernel program does the gather and the scatter-add on the host,
  takes the reciprocal 1 / max(deg, 1) ONCE and multiplies each aggregated row by it, and evaluates each layer's two
  matrix products, bias and activation in a pallas_call over ten blocks of 5000 node rows (operands narrowed to a
  shorter float format for the matrix unit: the identity on the extended reals). The reference does everything on the
  host, divides each aggregated row by max(deg, 1), recomputing the degree in each layer, and applies whole-matrix
  products.

  The proof states the network once (SageSpec.net) over an arbitrary edge aggregation and an arbitrary nowhere-zero
  degree vector, shows the kernel program's result array (KValue: the row blocks tile the output and a layer is
  row-wise; a · (1 / d) = a / d for d ≠ 0 on the extended reals, and max(deg, 1) ≥ 1) and the reference's result
  (RefValue) to be that network of their arguments, and observes that the two programs' gather / scatter-add and clamped
  degree are the same functions of the edge list. No finiteness of the inputs is used.

  The frames of the two kernel programs are the generated ones; the reference's is its generated run with the result
  dropped. The idealization rewrote nothing, so its preservation claim is trivial.
-/
import proofs.«131667_j30116310680318_1_alg».proof.Defs
import proofs.«131667_j30116310680318_1_alg».proof.Proof.Gen.Kernel
import proofs.«131667_j30116310680318_1_alg».proof.Proof.Gen.Kernel.Skeleton
import proofs.«131667_j30116310680318_1_alg».proof.Proof.Gen.Kernel.Launch
import proofs.«131667_j30116310680318_1_alg».proof.Proof.Gen.Kernel.Points
import proofs.«131667_j30116310680318_1_alg».proof.Proof.Gen.Kernel.Frame
import proofs.«131667_j30116310680318_1_alg».proof.Proof.Gen.KernelIdeal
import proofs.«131667_j30116310680318_1_alg».proof.Proof.Gen.KernelIdeal.Skeleton
import proofs.«131667_j30116310680318_1_alg».proof.Proof.Gen.KernelIdeal.Launch
import proofs.«131667_j30116310680318_1_alg».proof.Proof.Gen.KernelIdeal.Points
import proofs.«131667_j30116310680318_1_alg».proof.Proof.Gen.KernelIdeal.Frame
import proofs.«131667_j30116310680318_1_alg».proof.Proof.Gen.ReferenceIdeal
import proofs.«131667_j30116310680318_1_alg».proof.Proof.Gen.ReferenceIdeal.Run
import proofs.«131667_j30116310680318_1_alg».proof.Proof.Gen.Pre_finite_inputs
import proofs.«131667_j30116310680318_1_alg».proof.Proof.KValue
import proofs.«131667_j30116310680318_1_alg».proof.Proof.RefValue
import Idealize.ShloMosaic.Adequacy
import Idealize.ShloMosaic.Init

noncomputable section

namespace Cert.Proof

open Idealize.ShloMosaic Idealize.SL.Sem

namespace SageClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- The two programs' edge aggregations are one function of the edge list and the matrix aggregated: the same gather of
    the (wrapped) source rows scatter-added at the destinations into a zero matrix. -/
theorem agg_same (e : (⟨Cert.KernelIdeal.S2x800000, .i32⟩ : BufTy).Contents (Elt Ideal)) :
    Cert.ReferenceIdeal.RefValue.aggR (F := Ideal) e
      = Cert.KernelIdeal.Host.aggOf (F := Ideal) (Cert.KernelIdeal.Host.srcOf e) (Cert.KernelIdeal.Host.dstOf e) := rfl

/-- The two programs' clamped degrees are one function of the edge list. -/
theorem deg_same (e : (⟨Cert.KernelIdeal.S2x800000, .i32⟩ : BufTy).Contents (Elt Ideal)) :
    Cert.ReferenceIdeal.RefValue.degR e
      = fun p => Cert.KernelIdeal.Host.degOf (F := Ideal) (Cert.KernelIdeal.Host.dstOf e) (ValueIdx.ix1 p) := rfl

/-- From memories agreeing on the arguments both programs end with their result at the network of the arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨h0, h1, h2, h3, h4, h5, h6, h7⟩ := hagree c
  rw [h0, h1, h2, h3, h4, h5, h6, h7, agg_same, deg_same]

end SageClaims

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
